-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x32x32x64 : Shape := ⟨4, ![4, 32, 32, 64]⟩
abbrev S3x3x64x64 : Shape := ⟨4, ![3, 3, 64, 64]⟩
abbrev S_ : Shape := ⟨0, ![]⟩

class Facts : Prop where
  bcast_S_S4x32x32x64 : S_.BroadcastsInDim S4x32x32x64 (![] : Fin 0 → Fin S4x32x32x64.rank)
  reducesTo_S4x32x32x64_S_d0_1_2_3 : S4x32x32x64.ReducesTo [0, 1, 2, 3] S_
  h_S_ : 0 < S_.numel
  bcast_S_S3x3x64x64 : S_.BroadcastsInDim S3x3x64x64 (![] : Fin 0 → Fin S3x3x64x64.rank)
  reducesTo_S3x3x64x64_S_d0_1_2_3 : S3x3x64x64.ReducesTo [0, 1, 2, 3] S_

variable [Facts]

def fn {F : FTy → Type} [FloatOps F] (main_arg0 : FVec F S4x32x32x64 .f32) (main_arg1 : FVec F S3x3x64x64 .f32) : IVec S_ 1 :=
  let main_v0 : FVec F S4x32x32x64 .f32 := Host.absf main_arg0
  let main_cst : FVec F S_ .f32 := constant S_ .f32 0x7F800000#32
  let main_v1 : FVec F S4x32x32x64 .f32 := broadcastInDim S4x32x32x64 ![] bcast_S_S4x32x32x64 main_cst
  let main_v2 : IVec S4x32x32x64 1 := cmpf .olt main_v0 main_v1
  let main_c : IVec S_ 1 := constantI S_ 1 1#1
  let main_v3 : IVec S_ 1 := (fun x v => Host.reduce IntOp.andi x v reducesTo_S4x32x32x64_S_d0_1_2_3 h_S_) main_v2 main_c
  let main_v4 : FVec F S3x3x64x64 .f32 := Host.absf main_arg1
  let main_cst_0 : FVec F S_ .f32 := constant S_ .f32 0x7F800000#32
  let main_v5 : FVec F S3x3x64x64 .f32 := broadcastInDim S3x3x64x64 ![] bcast_S_S3x3x64x64 main_cst_0
  let main_v6 : IVec S3x3x64x64 1 := cmpf .olt main_v4 main_v5
  let main_c_1 : IVec S_ 1 := constantI S_ 1 1#1
  let main_v7 : IVec S_ 1 := (fun x v => Host.reduce IntOp.andi x v reducesTo_S3x3x64x64_S_d0_1_2_3 h_S_) main_v6 main_c_1
  let main_v8 : IVec S_ 1 := andi main_v3 main_v7
  main_v8
-- ==== Kernel.lean ====
abbrev S4x32x32x64 : Shape := ⟨4, ![4, 32, 32, 64]⟩
abbrev S3x3x64x64 : Shape := ⟨4, ![3, 3, 64, 64]⟩
abbrev S_ : Shape := ⟨0, ![]⟩
abbrev S4x34x34x64 : Shape := ⟨4, ![4, 34, 34, 64]⟩
abbrev S1x34x34x64 : Shape := ⟨4, ![1, 34, 34, 64]⟩
abbrev S1x32x32x64 : Shape := ⟨4, ![1, 32, 32, 64]⟩
abbrev S8x32x64 : Shape := ⟨3, ![8, 32, 64]⟩
abbrev S1x8x32x64 : Shape := ⟨4, ![1, 8, 32, 64]⟩
abbrev S1x1x64x64 : Shape := ⟨4, ![1, 1, 64, 64]⟩
abbrev S64x64 : Shape := ⟨2, ![64, 64]⟩
abbrev S8x32x64x1 : Shape := ⟨4, ![8, 32, 64, 1]⟩
abbrev S8x32x64x64 : Shape := ⟨4, ![8, 32, 64, 64]⟩

abbrev nBuf : Space → Nat
  | .hbm => 6
  | .vmem => 5
  | .smem => 0
  | _ => 0

abbrev bufTy : (tb : Table) → Fin (tcTables nBuf tb) → BufTy
  | .hbm, ⟨0, _⟩ => ⟨S4x32x32x64, .f32⟩
  | .hbm, ⟨1, _⟩ => ⟨S3x3x64x64, .f32⟩
  | .hbm, ⟨2, _⟩ => ⟨S_, .i32⟩
  | .hbm, ⟨3, _⟩ => ⟨S_, .f32⟩
  | .hbm, ⟨4, _⟩ => ⟨S4x34x34x64, .f32⟩
  | .hbm, ⟨5, _⟩ => ⟨S4x32x32x64, .f32⟩
  | .local _ .vmem, ⟨0, _⟩ => ⟨S1x34x34x64, .f32⟩
  | .local _ .vmem, ⟨1, _⟩ => ⟨S1x34x34x64, .f32⟩
  | .local _ .vmem, ⟨2, _⟩ => ⟨S3x3x64x64, .f32⟩
  | .local _ .vmem, ⟨3, _⟩ => ⟨S1x32x32x64, .f32⟩
  | .local _ .vmem, ⟨4, _⟩ => ⟨S1x32x32x64, .f32⟩
  | _, _ => ⟨S4x32x32x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x34x34x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x3x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x32x32x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S4x32x32x64_S4x34x34x64_000_110_110_000 : S4x32x32x64.Pads (![0, 1, 1, 0] : Fin 4 → Nat) ![0, 1, 1, 0] ![0, 0, 0, 0] S4x34x34x64
  h_S_ : 0 < S_.numel
  inb_S1x34x34x64_S1x8x32x64_0_0_0_0 : ∀ a, (![0, 0, 0, 0] : Fin 4 → Nat) a + S1x8x32x64.size a ≤ S1x34x34x64.size a
  h_S1x8x32x64 : 0 < S1x8x32x64.numel
  shapeCasts_S1x8x32x64_S8x32x64 : S1x8x32x64.ShapeCasts S8x32x64
  inb_S3x3x64x64_S1x1x64x64_0_0_0_0 : ∀ a, (![0, 0, 0, 0] : Fin 4 → Nat) a + S1x1x64x64.size a ≤ S3x3x64x64.size a
  h_S1x1x64x64 : 0 < S1x1x64x64.numel
  shapeCasts_S1x1x64x64_S64x64 : S1x1x64x64.ShapeCasts S64x64
  shapeCasts_S8x32x64_S8x32x64x1 : S8x32x64.ShapeCasts S8x32x64x1
  shapeCasts_S64x64_S1x1x64x64 : S64x64.ShapeCasts S1x1x64x64
  broadcasts_S8x32x64x1_S8x32x64x64 : S8x32x64x1.Broadcasts S8x32x64x64
  broadcasts_S1x1x64x64_S8x32x64x64 : S1x1x64x64.Broadcasts S8x32x64x64
  reduces_S8x32x64x64_S8x32x64 : S8x32x64x64.Reduces [2] S8x32x64
  inb_S1x34x34x64_S1x8x32x64_0_0_1_0 : ∀ a, (![0, 0, 1, 0] : Fin 4 → Nat) a + S1x8x32x64.size a ≤ S1x34x34x64.size a
  inb_S3x3x64x64_S1x1x64x64_0_1_0_0 : ∀ a, (![0, 1, 0, 0] : Fin 4 → Nat) a + S1x1x64x64.size a ≤ S3x3x64x64.size a
  inb_S1x34x34x64_S1x8x32x64_0_0_2_0 : ∀ a, (![0, 0, 2, 0] : Fin 4 → Nat) a + S1x8x32x64.size a ≤ S1x34x34x64.size a
  inb_S3x3x64x64_S1x1x64x64_0_2_0_0 : ∀ a, (![0, 2, 0, 0] : Fin 4 → Nat) a + S1x1x64x64.size a ≤ S3x3x64x64.size a
  inb_S1x34x34x64_S1x8x32x64_0_1_0_0 : ∀ a, (![0, 1, 0, 0] : Fin 4 → Nat) a + S1x8x32x64.size a ≤ S1x34x34x64.size a
  inb_S3x3x64x64_S1x1x64x64_1_0_0_0 : ∀ a, (![1, 0, 0, 0] : Fin 4 → Nat) a + S1x1x64x64.size a ≤ S3x3x64x64.size a
  inb_S1x34x34x64_S1x8x32x64_0_1_1_0 : ∀ a, (![0, 1, 1, 0] : Fin 4 → Nat) a + S1x8x32x64.size a ≤ S1x34x34x64.size a
  inb_S3x3x64x64_S1x1x64x64_1_1_0_0 : ∀ a, (![1, 1, 0, 0] : Fin 4 → Nat) a + S1x1x64x64.size a ≤ S3x3x64x64.size a
  inb_S1x34x34x64_S1x8x32x64_0_1_2_0 : ∀ a, (![0, 1, 2, 0] : Fin 4 → Nat) a + S1x8x32x64.size a ≤ S1x34x34x64.size a
  inb_S3x3x64x64_S1x1x64x64_1_2_0_0 : ∀ a, (![1, 2, 0, 0] : Fin 4 → Nat) a + S1x1x64x64.size a ≤ S3x3x64x64.size a
  inb_S1x34x34x64_S1x8x32x64_0_2_0_0 : ∀ a, (![0, 2, 0, 0] : Fin 4 → Nat) a + S1x8x32x64.size a ≤ S1x34x34x64.size a
  inb_S3x3x64x64_S1x1x64x64_2_0_0_0 : ∀ a, (![2, 0, 0, 0] : Fin 4 → Nat) a + S1x1x64x64.size a ≤ S3x3x64x64.size a
  inb_S1x34x34x64_S1x8x32x64_0_2_1_0 : ∀ a, (![0, 2, 1, 0] : Fin 4 → Nat) a + S1x8x32x64.size a ≤ S1x34x34x64.size a
  inb_S3x3x64x64_S1x1x64x64_2_1_0_0 : ∀ a, (![2, 1, 0, 0] : Fin 4 → Nat) a + S1x1x64x64.size a ≤ S3x3x64x64.size a
  inb_S1x34x34x64_S1x8x32x64_0_2_2_0 : ∀ a, (![0, 2, 2, 0] : Fin 4 → Nat) a + S1x8x32x64.size a ≤ S1x34x34x64.size a
  inb_S3x3x64x64_S1x1x64x64_2_2_0_0 : ∀ a, (![2, 2, 0, 0] : Fin 4 → Nat) a + S1x1x64x64.size a ≤ S3x3x64x64.size a
  inb_S1x32x32x64_S1x8x32x64_0_0_0_0 : ∀ a, (![0, 0, 0, 0] : Fin 4 → Nat) a + S1x8x32x64.size a ≤ S1x32x32x64.size a
  shapeCasts_S8x32x64_S1x8x32x64 : S8x32x64.ShapeCasts S1x8x32x64
  inb_S1x34x34x64_S1x8x32x64_0_8_0_0 : ∀ a, (![0, 8, 0, 0] : Fin 4 → Nat) a + S1x8x32x64.size a ≤ S1x34x34x64.size a
  inb_S1x34x34x64_S1x8x32x64_0_8_1_0 : ∀ a, (![0, 8, 1, 0] : Fin 4 → Nat) a + S1x8x32x64.size a ≤ S1x34x34x64.size a
  inb_S1x34x34x64_S1x8x32x64_0_8_2_0 : ∀ a, (![0, 8, 2, 0] : Fin 4 → Nat) a + S1x8x32x64.size a ≤ S1x34x34x64.size a
  inb_S1x34x34x64_S1x8x32x64_0_9_0_0 : ∀ a, (![0, 9, 0, 0] : Fin 4 → Nat) a + S1x8x32x64.size a ≤ S1x34x34x64.size a
  inb_S1x34x34x64_S1x8x32x64_0_9_1_0 : ∀ a, (![0, 9, 1, 0] : Fin 4 → Nat) a + S1x8x32x64.size a ≤ S1x34x34x64.size a
  inb_S1x34x34x64_S1x8x32x64_0_9_2_0 : ∀ a, (![0, 9, 2, 0] : Fin 4 → Nat) a + S1x8x32x64.size a ≤ S1x34x34x64.size a
  inb_S1x34x34x64_S1x8x32x64_0_10_0_0 : ∀ a, (![0, 10, 0, 0] : Fin 4 → Nat) a + S1x8x32x64.size a ≤ S1x34x34x64.size a
  inb_S1x34x34x64_S1x8x32x64_0_10_1_0 : ∀ a, (![0, 10, 1, 0] : Fin 4 → Nat) a + S1x8x32x64.size a ≤ S1x34x34x64.size a
  inb_S1x34x34x64_S1x8x32x64_0_10_2_0 : ∀ a, (![0, 10, 2, 0] : Fin 4 → Nat) a + S1x8x32x64.size a ≤ S1x34x34x64.size a
  inb_S1x32x32x64_S1x8x32x64_0_8_0_0 : ∀ a, (![0, 8, 0, 0] : Fin 4 → Nat) a + S1x8x32x64.size a ≤ S1x32x32x64.size a
  inb_S1x34x34x64_S1x8x32x64_0_16_0_0 : ∀ a, (![0, 16, 0, 0] : Fin 4 → Nat) a + S1x8x32x64.size a ≤ S1x34x34x64.size a
  inb_S1x34x34x64_S1x8x32x64_0_16_1_0 : ∀ a, (![0, 16, 1, 0] : Fin 4 → Nat) a + S1x8x32x64.size a ≤ S1x34x34x64.size a
  inb_S1x34x34x64_S1x8x32x64_0_16_2_0 : ∀ a, (![0, 16, 2, 0] : Fin 4 → Nat) a + S1x8x32x64.size a ≤ S1x34x34x64.size a
  inb_S1x34x34x64_S1x8x32x64_0_17_0_0 : ∀ a, (![0, 17, 0, 0] : Fin 4 → Nat) a + S1x8x32x64.size a ≤ S1x34x34x64.size a
  inb_S1x34x34x64_S1x8x32x64_0_17_1_0 : ∀ a, (![0, 17, 1, 0] : Fin 4 → Nat) a + S1x8x32x64.size a ≤ S1x34x34x64.size a
  inb_S1x34x34x64_S1x8x32x64_0_17_2_0 : ∀ a, (![0, 17, 2, 0] : Fin 4 → Nat) a + S1x8x32x64.size a ≤ S1x34x34x64.size a
  inb_S1x34x34x64_S1x8x32x64_0_18_0_0 : ∀ a, (![0, 18, 0, 0] : Fin 4 → Nat) a + S1x8x32x64.size a ≤ S1x34x34x64.size a
  inb_S1x34x34x64_S1x8x32x64_0_18_1_0 : ∀ a, (![0, 18, 1, 0] : Fin 4 → Nat) a + S1x8x32x64.size a ≤ S1x34x34x64.size a
  inb_S1x34x34x64_S1x8x32x64_0_18_2_0 : ∀ a, (![0, 18, 2, 0] : Fin 4 → Nat) a + S1x8x32x64.size a ≤ S1x34x34x64.size a
  inb_S1x32x32x64_S1x8x32x64_0_16_0_0 : ∀ a, (![0, 16, 0, 0] : Fin 4 → Nat) a + S1x8x32x64.size a ≤ S1x32x32x64.size a
  inb_S1x34x34x64_S1x8x32x64_0_24_0_0 : ∀ a, (![0, 24, 0, 0] : Fin 4 → Nat) a + S1x8x32x64.size a ≤ S1x34x34x64.size a
  inb_S1x34x34x64_S1x8x32x64_0_24_1_0 : ∀ a, (![0, 24, 1, 0] : Fin 4 → Nat) a + S1x8x32x64.size a ≤ S1x34x34x64.size a
  inb_S1x34x34x64_S1x8x32x64_0_24_2_0 : ∀ a, (![0, 24, 2, 0] : Fin 4 → Nat) a + S1x8x32x64.size a ≤ S1x34x34x64.size a
  inb_S1x34x34x64_S1x8x32x64_0_25_0_0 : ∀ a, (![0, 25, 0, 0] : Fin 4 → Nat) a + S1x8x32x64.size a ≤ S1x34x34x64.size a
  inb_S1x34x34x64_S1x8x32x64_0_25_1_0 : ∀ a, (![0, 25, 1, 0] : Fin 4 → Nat) a + S1x8x32x64.size a ≤ S1x34x34x64.size a
  inb_S1x34x34x64_S1x8x32x64_0_25_2_0 : ∀ a, (![0, 25, 2, 0] : Fin 4 → Nat) a + S1x8x32x64.size a ≤ S1x34x34x64.size a
  inb_S1x34x34x64_S1x8x32x64_0_26_0_0 : ∀ a, (![0, 26, 0, 0] : Fin 4 → Nat) a + S1x8x32x64.size a ≤ S1x34x34x64.size a
  inb_S1x34x34x64_S1x8x32x64_0_26_1_0 : ∀ a, (![0, 26, 1, 0] : Fin 4 → Nat) a + S1x8x32x64.size a ≤ S1x34x34x64.size a
  inb_S1x34x34x64_S1x8x32x64_0_26_2_0 : ∀ a, (![0, 26, 2, 0] : Fin 4 → Nat) a + S1x8x32x64.size a ≤ S1x34x34x64.size a
  inb_S1x32x32x64_S1x8x32x64_0_24_0_0 : ∀ a, (![0, 24, 0, 0] : Fin 4 → Nat) a + S1x8x32x64.size a ≤ S1x32x32x64.size a
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x34x34x64.size a ≤ S4x34x34x64.size a
  hwx0_0 : ∀ i : grid0.Coords, EltTy.bits .f32 = 32 ∨ (Rect.block (s := S4x34x34x64) S1x34x34x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x3x64x64.size a ≤ S3x3x64x64.size a
  hwx0_1 : ∀ i : grid0.Coords, EltTy.bits .f32 = 32 ∨ (Rect.block (s := S3x3x64x64) S3x3x64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x32x32x64.size a ≤ S4x32x32x64.size a
  hwx0_2 : ∀ i : grid0.Coords, EltTy.bits .f32 = 32 ∨ (Rect.block (s := S4x32x32x64) S1x32x32x64.size (cc0_transform_2 i) (hinb0_2 i)).WholeWords (EltTy.packing .f32)

variable [Facts₀]

abbrev win0_0 : Pipeline.Window sig grid0 :=
  Pipeline.Window.ofSpec (Memref.whole main_v0) S1x34x34x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S3x3x64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x32x32x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x32x32x64 : Shape := ⟨4, ![4, 32, 32, 64]⟩
abbrev S3x3x64x64 : Shape := ⟨4, ![3, 3, 64, 64]⟩
abbrev S_ : Shape := ⟨0, ![]⟩
abbrev S4x34x34x64 : Shape := ⟨4, ![4, 34, 34, 64]⟩
abbrev S4x32x32x1x64 : Shape := ⟨5, ![4, 32, 32, 1, 64]⟩
abbrev S4x32x32x9x64 : Shape := ⟨5, ![4, 32, 32, 9, 64]⟩
abbrev S4x32x32x576 : Shape := ⟨4, ![4, 32, 32, 576]⟩
abbrev S576x64 : Shape := ⟨2, ![576, 64]⟩
abbrev S4x32x32x576x1 : Shape := ⟨5, ![4, 32, 32, 576, 1]⟩
abbrev S1x1x1x576x64 : Shape := ⟨5, ![1, 1, 1, 576, 64]⟩
abbrev S4x32x32x576x64 : Shape := ⟨5, ![4, 32, 32, 576, 64]⟩

abbrev nBuf : Space → Nat
  | .hbm => 34
  | .vmem => 0
  | .smem => 0
  | _ => 0

abbrev bufTy : (tb : Table) → Fin (tcTables nBuf tb) → BufTy
  | .hbm, ⟨0, _⟩ => ⟨S4x32x32x64, .f32⟩
  | .hbm, ⟨1, _⟩ => ⟨S3x3x64x64, .f32⟩
  | .hbm, ⟨2, _⟩ => ⟨S_, .i32⟩
  | .hbm, ⟨3, _⟩ => ⟨S_, .f32⟩
  | .hbm, ⟨4, _⟩ => ⟨S4x34x34x64, .f32⟩
  | .hbm, ⟨5, _⟩ => ⟨S4x32x32x64, .f32⟩
  | .hbm, ⟨6, _⟩ => ⟨S4x32x32x64, .f32⟩
  | .hbm, ⟨7, _⟩ => ⟨S4x32x32x64, .f32⟩
  | .hbm, ⟨8, _⟩ => ⟨S4x32x32x64, .f32⟩
  | .hbm, ⟨9, _⟩ => ⟨S4x32x32x64, .f32⟩
  | .hbm, ⟨10, _⟩ => ⟨S4x32x32x64, .f32⟩
  | .hbm, ⟨11, _⟩ => ⟨S4x32x32x64, .f32⟩
  | .hbm, ⟨12, _⟩ => ⟨S4x32x32x64, .f32⟩
  | .hbm, ⟨13, _⟩ => ⟨S4x32x32x64, .f32⟩
  | .hbm, ⟨14, _⟩ => ⟨S4x32x32x1x64, .f32⟩
  | .hbm, ⟨15, _⟩ => ⟨S4x32x32x1x64, .f32⟩
  | .hbm, ⟨16, _⟩ => ⟨S4x32x32x1x64, .f32⟩
  | .hbm, ⟨17, _⟩ => ⟨S4x32x32x1x64, .f32⟩
  | .hbm, ⟨18, _⟩ => ⟨S4x32x32x1x64, .f32⟩
  | .hbm, ⟨19, _⟩ => ⟨S4x32x32x1x64, .f32⟩
  | .hbm, ⟨20, _⟩ => ⟨S4x32x32x1x64, .f32⟩
  | .hbm, ⟨21, _⟩ => ⟨S4x32x32x1x64, .f32⟩
  | .hbm, ⟨22, _⟩ => ⟨S4x32x32x1x64, .f32⟩
  | .hbm, ⟨23, _⟩ => ⟨S4x32x32x9x64, .f32⟩
  | .hbm, ⟨24, _⟩ => ⟨S4x32x32x576, .f32⟩
  | .hbm, ⟨25, _⟩ => ⟨S576x64, .f32⟩
  | .hbm, ⟨26, _⟩ => ⟨S4x32x32x576x1, .f32⟩
  | .hbm, ⟨27, _⟩ => ⟨S1x1x1x576x64, .f32⟩
  | .hbm, ⟨28, _⟩ => ⟨S4x32x32x576x64, .f32⟩
  | .hbm, ⟨29, _⟩ => ⟨S4x32x32x576x64, .f32⟩
  | .hbm, ⟨30, _⟩ => ⟨S4x32x32x576x64, .f32⟩
  | .hbm, ⟨31, _⟩ => ⟨S4x32x32x576x64, .f32⟩
  | .hbm, ⟨32, _⟩ => ⟨S_, .f32⟩
  | .hbm, ⟨33, _⟩ => ⟨S4x32x32x64, .f32⟩
  | _, _ => ⟨S4x32x32x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_cst : Ref sig .tc := ⟨.hbm, 32, rfl⟩
abbrev main_v28 : Ref sig .tc := ⟨.hbm, 33, rfl⟩

abbrev nD : Nat := 1
abbrev τ : Topo := Topo.v7x

variable {F : FTy → Type} [FloatOps F]

class Facts₀ : Prop where
  pads_S4x32x32x64_S4x34x34x64_000_110_110_000 : S4x32x32x64.Pads (![0, 1, 1, 0] : Fin 4 → Nat) ![0, 1, 1, 0] ![0, 0, 0, 0] S4x34x34x64
  h_S_ : 0 < S_.numel
  slices_S4x34x34x64_S4x32x32x64_0_0_0_0 : S4x34x34x64.Slices ![0, 0, 0, 0] S4x32x32x64
  slices_S4x34x34x64_S4x32x32x64_0_0_1_0 : S4x34x34x64.Slices ![0, 0, 1, 0] S4x32x32x64
  slices_S4x34x34x64_S4x32x32x64_0_0_2_0 : S4x34x34x64.Slices ![0, 0, 2, 0] S4x32x32x64
  slices_S4x34x34x64_S4x32x32x64_0_1_0_0 : S4x34x34x64.Slices ![0, 1, 0, 0] S4x32x32x64
  slices_S4x34x34x64_S4x32x32x64_0_1_1_0 : S4x34x34x64.Slices ![0, 1, 1, 0] S4x32x32x64
  slices_S4x34x34x64_S4x32x32x64_0_1_2_0 : S4x34x34x64.Slices ![0, 1, 2, 0] S4x32x32x64
  slices_S4x34x34x64_S4x32x32x64_0_2_0_0 : S4x34x34x64.Slices ![0, 2, 0, 0] S4x32x32x64
  slices_S4x34x34x64_S4x32x32x64_0_2_1_0 : S4x34x34x64.Slices ![0, 2, 1, 0] S4x32x32x64
  slices_S4x34x34x64_S4x32x32x64_0_2_2_0 : S4x34x34x64.Slices ![0, 2, 2, 0] S4x32x32x64
  bcast_S4x32x32x64_S4x32x32x1x64_0_1_2_4 : S4x32x32x64.BroadcastsInDim S4x32x32x1x64 (![0, 1, 2, 4] : Fin 4 → Fin S4x32x32x1x64.rank)
  concatenates_S4x32x32x1x64_S4x32x32x1x64_S4x32x32x1x64_S4x32x32x1x64_S4x32x32x1x64_S4x32x32x1x64_S4x32x32x1x64_S4x32x32x1x64_S4x32x32x1x64_S4x32x32x9x64_d3 : Shape.Concatenates [S4x32x32x1x64, S4x32x32x1x64, S4x32x32x1x64, S4x32x32x1x64, S4x32x32x1x64, S4x32x32x1x64, S4x32x32x1x64, S4x32x32x1x64, S4x32x32x1x64] S4x32x32x9x64 3
  shapeCasts_S4x32x32x9x64_S4x32x32x576 : S4x32x32x9x64.ShapeCasts S4x32x32x576
  shapeCasts_S3x3x64x64_S576x64 : S3x3x64x64.ShapeCasts S576x64
  bcast_S4x32x32x576_S4x32x32x576x1_0_1_2_3 : S4x32x32x576.BroadcastsInDim S4x32x32x576x1 (![0, 1, 2, 3] : Fin 4 → Fin S4x32x32x576x1.rank)
  bcast_S576x64_S1x1x1x576x64_3_4 : S576x64.BroadcastsInDim S1x1x1x576x64 (![3, 4] : Fin 2 → Fin S1x1x1x576x64.rank)
  bcast_S4x32x32x576x1_S4x32x32x576x64_0_1_2_3_4 : S4x32x32x576x1.BroadcastsInDim S4x32x32x576x64 (![0, 1, 2, 3, 4] : Fin 5 → Fin S4x32x32x576x64.rank)
  bcast_S1x1x1x576x64_S4x32x32x576x64_0_1_2_3_4 : S1x1x1x576x64.BroadcastsInDim S4x32x32x576x64 (![0, 1, 2, 3, 4] : Fin 5 → Fin S4x32x32x576x64.rank)
  reducesTo_S4x32x32x576x64_S4x32x32x64_d3 : S4x32x32x576x64.ReducesTo [3] S4x32x32x64

variable [Facts₀]

class Facts : Prop extends Facts₀ where

variable [Facts]
-- ==== Proof.LibAbsDiffSum.lean ====
/-
  Rank-4 arrays read at an index given by coordinates, and the lane sum of absolute differences that an
  "adder" convolution takes at each tap.

  Layout: an `[a, b, c]` array viewed as `[a, b, c, 1]` and laid along a new last axis of extent `d`; a `[c, d]`
  array viewed as `[1, 1, c, d]` and laid along two new leading axes; a leading unit axis dropped from or added to a
  rank-3 array, and two leading unit axes dropped from a rank-4 array. Reduction over the extended reals: the sum
  along axis 2 of an `[a, b, c, d]` array. Together: at `(p, q, s)` the sum over `k` of `|X (p, q, k) - Y (k, s)|`,
  where `|z|` on the extended reals is `max z (-z)`.
-/
import Idealize.ShloMosaic.Lib.Pipeline.Value
import Idealize.ShloMosaic.Lib.ValueIdx
import Idealize.ShloMosaic.PureOps.Ideal.Laws

noncomputable section

namespace Cert.LibAbsDiffSum

open Idealize.ShloMosaic Idealize.ShloMosaic.ValueIdx

/-! ## Layout -/

section Layout
variable {α : Type} {a b c d : ℕ}

/-- An `[a, b, c]` array viewed as `[a, b, c, 1]` reads, at `(p, q, r, u)`, the operand at `(p, q, r)`. -/
theorem shapeCast_abc_abc1_apply (x : (⟨3, ![a, b, c]⟩ : Shape).Idx → α)
    (h : (⟨3, ![a, b, c]⟩ : Shape).ShapeCasts ⟨4, ![a, b, c, 1]⟩) (p : Fin a) (q : Fin b) (r : Fin c) (u : Fin 1) :
    shapeCast ⟨4, ![a, b, c, 1]⟩ x h (ix4 p q r u) = x (ix3 p q r) :=
  shapeCast_apply x h _ _ (by
    have hu : u.val = 0 := by omega
    rw [Shape.rowMajor_val_three, Shape.rowMajor_val_four]
    show (p.val * b + q.val) * c + r.val = ((p.val * b + q.val) * c + r.val) * 1 + u.val
    rw [hu, Nat.mul_one, Nat.add_zero])

/-- A `[c, d]` array viewed as `[1, 1, c, d]` reads, at `(u, v, r, s)`, the operand at `(r, s)`. -/
theorem shapeCast_cd_11cd_apply (x : (⟨2, ![c, d]⟩ : Shape).Idx → α)
    (h : (⟨2, ![c, d]⟩ : Shape).ShapeCasts ⟨4, ![1, 1, c, d]⟩) (u v : Fin 1) (r : Fin c) (s : Fin d) :
    shapeCast ⟨4, ![1, 1, c, d]⟩ x h (ix4 u v r s) = x (ix2 r s) :=
  shapeCast_apply x h _ _ (by
    have hu : u.val = 0 := by omega
    have hv : v.val = 0 := by omega
    rw [Shape.rowMajor_val_two, Shape.rowMajor_val_four]
    show r.val * d + s.val = ((u.val * 1 + v.val) * c + r.val) * d + s.val
    simp only [hu, hv, Nat.zero_mul, Nat.zero_add])

/-- A `[1, 1, c, d]` array viewed as `[c, d]` reads, at `(r, s)`, the operand at `(0, 0, r, s)`. -/
theorem shapeCast_11cd_cd_apply (x : (⟨4, ![1, 1, c, d]⟩ : Shape).Idx → α)
    (h : (⟨4, ![1, 1, c, d]⟩ : Shape).ShapeCasts ⟨2, ![c, d]⟩) (r : Fin c) (s : Fin d) :
    shapeCast ⟨2, ![c, d]⟩ x h (ix2 r s) = x (ix4 (0 : Fin 1) (0 : Fin 1) r s) :=
  shapeCast_apply x h _ _ (by
    rw [Shape.rowMajor_val_two, Shape.rowMajor_val_four]
    show (((0 : ℕ) * 1 + 0) * c + r.val) * d + s.val = r.val * d + s.val
    simp only [Nat.zero_mul, Nat.zero_add])

/-- A `[1, a, b, c]` array viewed as `[a, b, c]` reads, at `(p, q, r)`, the operand at `(0, p, q, r)`. -/
theorem shapeCast_1abc_abc_apply (x : (⟨4, ![1, a, b, c]⟩ : Shape).Idx → α)
    (h : (⟨4, ![1, a, b, c]⟩ : Shape).ShapeCasts ⟨3, ![a, b, c]⟩) (p : Fin a) (q : Fin b) (r : Fin c) :
    shapeCast ⟨3, ![a, b, c]⟩ x h (ix3 p q r) = x (ix4 (0 : Fin 1) p q r) :=
  shapeCast_apply x h _ _ (by
    rw [Shape.rowMajor_val_three, Shape.rowMajor_val_four]
    show (((0 : ℕ) * a + p.val) * b + q.val) * c + r.val = (p.val * b + q.val) * c + r.val
    rw [Nat.zero_mul, Nat.zero_add])

/-- An `[a, b, c]` array viewed as `[1, a, b, c]` reads, at `(u, p, q, r)`, the operand at `(p, q, r)`. -/
theorem shapeCast_abc_1abc_apply (x : (⟨3, ![a, b, c]⟩ : Shape).Idx → α)
    (h : (⟨3, ![a, b, c]⟩ : Shape).ShapeCasts ⟨4, ![1, a, b, c]⟩) (u : Fin 1) (p : Fin a) (q : Fin b) (r : Fin c) :
    shapeCast ⟨4, ![1, a, b, c]⟩ x h (ix4 u p q r) = x (ix3 p q r) :=
  shapeCast_apply x h _ _ (by
    have hu : u.val = 0 := by omega
    rw [Shape.rowMajor_val_three, Shape.rowMajor_val_four]
    show (p.val * b + q.val) * c + r.val = ((u.val * a + p.val) * b + q.val) * c + r.val
    rw [hu, Nat.zero_mul, Nat.zero_add])

/-- An `[a, b, c, 1]` array laid along the last axis of `[a, b, c, d]` reads, at `(p, q, r, s)`, its entry `(p, q, r, 0)`. -/
theorem broadcastTo_abc1_abcd_apply (v : (⟨4, ![a, b, c, 1]⟩ : Shape).Idx → α)
    (h : (⟨4, ![a, b, c, 1]⟩ : Shape).Broadcasts ⟨4, ![a, b, c, d]⟩) (p : Fin a) (q : Fin b) (r : Fin c) (s : Fin d) :
    broadcastTo ⟨4, ![a, b, c, d]⟩ v h (ix4 p q r s) = v (ix4 p q r (0 : Fin 1)) := by
  refine broadcastTo_apply v h (ix4 p q r s) (ix4 p q r (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ =>
    show r.val = if c = 1 then 0 else r.val
    split
    · have := r.isLt; omega
    · rfl
  | ⟨3, _⟩ => rfl

/-- A `[1, 1, c, d]` array laid along the two leading axes of `[a, b, c, d]` reads, at `(p, q, r, s)`, its entry
    `(0, 0, r, s)`. -/
theorem broadcastTo_11cd_abcd_apply (v : (⟨4, ![1, 1, c, d]⟩ : Shape).Idx → α)
    (h : (⟨4, ![1, 1, c, d]⟩ : Shape).Broadcasts ⟨4, ![a, b, c, d]⟩) (p : Fin a) (q : Fin b) (r : Fin c) (s : Fin d) :
    broadcastTo ⟨4, ![a, b, c, d]⟩ v h (ix4 p q r s) = v (ix4 (0 : Fin 1) (0 : Fin 1) r s) := by
  refine broadcastTo_apply v h (ix4 p q r s) (ix4 (0 : Fin 1) (0 : Fin 1) r s) fun ax => ?_
  match ax with
  | ⟨0, _⟩ => rfl
  | ⟨1, _⟩ => rfl
  | ⟨2, _⟩ =>
    show r.val = if c = 1 then 0 else r.val
    split
    · have := r.isLt; omega
    · rfl
  | ⟨3, _⟩ =>
    show s.val = if d = 1 then 0 else s.val
    split
    · have := s.isLt; omega
    · rfl

end Layout

/-! ## The sum along axis 2, and the lane sum of absolute differences -/

section Reduce
variable {φ : FTy} {a b c d : ℕ}

/-- The sum along axis 2 at `(p, q, s)`: the sum over `k` of the entries `(p, q, k, s)`. -/
theorem sum_axis2_apply (src : FVec Ideal ⟨4, ![a, b, c, d]⟩ φ) (acc : BitVec φ.bits)
    (h : (⟨4, ![a, b, c, d]⟩ : Shape).Reduces [2] ⟨3, ![a, b, d]⟩) (hφ : FKind.Formats φ) (hacc : acc = FKind.add.neutral φ hφ)
    (p : Fin a) (q : Fin b) (s : Fin d) :
    multiReduction .add [2] ⟨3, ![a, b, d]⟩ src acc h hφ hacc (ix3 p q s) = ∑ k : Fin c, src (ix4 p q k s) :=
  (Ideal.multiReduction_add_single src acc h hφ hacc (ix3 p q s)).trans
    (Finset.sum_congr rfl fun k _ => congrArg src (funext fun ax => Fin.ext (by
      match ax with | ⟨0, _⟩ => rfl | ⟨1, _⟩ => rfl | ⟨2, _⟩ => rfl | ⟨3, _⟩ => rfl)))

/-- THE TAP: an `[a, b, c]` array `X` and a `[c, d]` array `Y`, each laid along the other's missing axes, subtracted,
    made absolute and summed along `c`: at `(p, q, s)` the sum over `k` of `|X (p, q, k) - Y (k, s)|`. -/
theorem absdiff_sum_apply (X : FVec Ideal ⟨3, ![a, b, c]⟩ φ) (Y : FVec Ideal ⟨2, ![c, d]⟩ φ) (acc : BitVec φ.bits)
    (h1 : (⟨3, ![a, b, c]⟩ : Shape).ShapeCasts ⟨4, ![a, b, c, 1]⟩)
    (h2 : (⟨4, ![a, b, c, 1]⟩ : Shape).Broadcasts ⟨4, ![a, b, c, d]⟩)
    (h3 : (⟨2, ![c, d]⟩ : Shape).ShapeCasts ⟨4, ![1, 1, c, d]⟩)
    (h4 : (⟨4, ![1, 1, c, d]⟩ : Shape).Broadcasts ⟨4, ![a, b, c, d]⟩)
    (h5 : (⟨4, ![a, b, c, d]⟩ : Shape).Reduces [2] ⟨3, ![a, b, d]⟩) (hφ : FKind.Formats φ) (hacc : acc = FKind.add.neutral φ hφ)
    (p : Fin a) (q : Fin b) (s : Fin d) :
    multiReduction .add [2] ⟨3, ![a, b, d]⟩
        (absf (subf (broadcastTo ⟨4, ![a, b, c, d]⟩ (shapeCast ⟨4, ![a, b, c, 1]⟩ X h1) h2)
          (broadcastTo ⟨4, ![a, b, c, d]⟩ (shapeCast ⟨4, ![1, 1, c, d]⟩ Y h3) h4))) acc h5 hφ hacc (ix3 p q s)
      = ∑ k : Fin c, max (X (ix3 p q k) - Y (ix2 k s)) (-(X (ix3 p q k) - Y (ix2 k s))) := by
  rw [sum_axis2_apply]
  refine Finset.sum_congr rfl fun k _ => ?_
  show max (broadcastTo ⟨4, ![a, b, c, d]⟩ (shapeCast ⟨4, ![a, b, c, 1]⟩ X h1) h2 (ix4 p q k s)
        - broadcastTo ⟨4, ![a, b, c, d]⟩ (shapeCast ⟨4, ![1, 1, c, d]⟩ Y h3) h4 (ix4 p q k s))
      (-(broadcastTo ⟨4, ![a, b, c, d]⟩ (shapeCast ⟨4, ![a, b, c, 1]⟩ X h1) h2 (ix4 p q k s)
        - broadcastTo ⟨4, ![a, b, c, d]⟩ (shapeCast ⟨4, ![1, 1, c, d]⟩ Y h3) h4 (ix4 p q k s))) = _
  rw [broadcastTo_abc1_abcd_apply, broadcastTo_11cd_abcd_apply, shapeCast_abc_abc1_apply, shapeCast_cd_11cd_apply]

end Reduce

end Cert.LibAbsDiffSum

end
-- ==== Proof.LibSumBlocks.lean ====
/-
  A sum over a range of a * b consecutive numbers, cut into a consecutive blocks of b numbers each: in any commutative
  monoid the whole sum is the sum over the blocks of each block's sum, whatever function names the member k of block j,
  as long as that member is the number b * j + k. For four blocks the outer sum is written out as a chain of additions
  from the left, which is the order in which an accumulator that is updated once per block builds it.
-/
import Mathlib.Algebra.BigOperators.Fin
import Mathlib.Algebra.BigOperators.Group.Finset.Sigma
import Mathlib.Logic.Equiv.Fin.Basic

namespace Cert.LibSumBlocks

variable {M : Type*} [AddCommMonoid M]

/-- THE CUT: the sum over all n = a * b numbers is the double sum over block j and place k of the value at b * j + k. -/
theorem sum_blocks {a b n : ℕ} (hn : a * b = n) (f : Fin n → M) (g : Fin a → Fin b → Fin n)
    (hg : ∀ j k, (g j k).val = b * j.val + k.val) :
    ∑ k, f k = ∑ j, ∑ k', f (g j k') := by
  subst hn
  rw [← Fintype.sum_prod_type']
  refine (Fintype.sum_equiv finProdFinEquiv _ _ fun x => ?_).symm
  refine congrArg f (Fin.ext ?_)
  rw [hg, finProdFinEquiv_apply_val, Nat.add_comm]

/-- Four blocks, accumulated from the left starting at zero. -/
theorem sum_four_blocks {b n : ℕ} (hn : 4 * b = n) (f : Fin n → M) (g : Fin 4 → Fin b → Fin n)
    (hg : ∀ j k, (g j k).val = b * j.val + k.val) :
    ((((0 : M) + ∑ k, f (g 0 k)) + ∑ k, f (g 1 k)) + ∑ k, f (g 2 k)) + ∑ k, f (g 3 k) = ∑ k, f k := by
  rw [sum_blocks hn f g hg, Fin.sum_univ_four, zero_add]

end Cert.LibSumBlocks
-- ==== Proof.Spec.lean ====
/-
  The L1 ("adder") convolution, stated once, and the two summation laws that join a tiled evaluation and a flattened
  evaluation to it.

  For a zero-padded input `xp` of spatial extent 34 x 34 with 64 channels and a 3 x 3 x 64 x 64 array `k`, the output
  at `(b, h, w, o)` is the sum over the nine taps `(i, j)` and the 64 input channels `c` of
  `|xp (b, h + i, w + j, c) - k (i, j, c, o)|`, the absolute value on the extended reals being `max z (-z)`.
  Addition on the extended reals is commutative and associative with `0` as its unit, and nothing more is used: the
  sum may be grouped tap by tap and accumulated from zero, or taken at once over the 576 = 9 * 64 flattened terms.
-/
import Mathlib.Algebra.BigOperators.Fin
import Idealize.ShloMosaic.Lib.ValueIdx
import proofs.«125155_j19009525252352_1_alg».proof.Proof.LibSumBlocks

noncomputable section

namespace Cert.AdderConv

open Idealize.ShloMosaic Idealize.ShloMosaic.ValueIdx

/-- Two rank-4 indices with equal coordinates are equal. -/
theorem idx4_ext {n0 n1 n2 n3 : ℕ} (p q : (⟨4, ![n0, n1, n2, n3]⟩ : Shape).Idx)
    (h0 : (p 0).val = (q 0).val) (h1 : (p 1).val = (q 1).val) (h2 : (p 2).val = (q 2).val) (h3 : (p 3).val = (q 3).val) : p = q :=
  funext fun a => Fin.ext (match a with | ⟨0, _⟩ => h0 | ⟨1, _⟩ => h1 | ⟨2, _⟩ => h2 | ⟨3, _⟩ => h3)

/-- Two rank-5 indices with equal coordinates are equal. -/
theorem idx5_ext {n0 n1 n2 n3 n4 : ℕ} (p q : (⟨5, ![n0, n1, n2, n3, n4]⟩ : Shape).Idx)
    (h0 : (p 0).val = (q 0).val) (h1 : (p 1).val = (q 1).val) (h2 : (p 2).val = (q 2).val) (h3 : (p 3).val = (q 3).val)
    (h4 : (p 4).val = (q 4).val) : p = q :=
  funext fun a => Fin.ext (match a with | ⟨0, _⟩ => h0 | ⟨1, _⟩ => h1 | ⟨2, _⟩ => h2 | ⟨3, _⟩ => h3 | ⟨4, _⟩ => h4)

/-- The absolute value on the extended reals. -/
def absE (z : EReal) : EReal := max z (-z)

/-- Output row (or column) `h` meets padded row (or column) `h + i` at tap offset `i`. -/
def shift (h : Fin 32) (i : Fin 3) : Fin 34 := ⟨h.val + i.val, by omega⟩

@[simp] theorem shift_val (h : Fin 32) (i : Fin 3) : (shift h i).val = h.val + i.val := rfl

/-- One tap's contribution at an output position: the sum over the input channels of the absolute differences. -/
def tap {B : ℕ} (xp : (⟨4, ![B, 34, 34, 64]⟩ : Shape).Idx → EReal) (k : (⟨4, ![3, 3, 64, 64]⟩ : Shape).Idx → EReal)
    (b : Fin B) (h w : Fin 32) (o : Fin 64) (i j : Fin 3) : EReal :=
  ∑ c : Fin 64, absE (xp (ix4 b (shift h i) (shift w j) c) - k (ix4 i j c o))

/-- THE CONVOLUTION over a batch of `B` padded images: at each output position the nine taps added. -/
def conv {B : ℕ} (xp : (⟨4, ![B, 34, 34, 64]⟩ : Shape).Idx → EReal) (k : (⟨4, ![3, 3, 64, 64]⟩ : Shape).Idx → EReal) :
    (⟨4, ![B, 32, 32, 64]⟩ : Shape).Idx → EReal :=
  fun y => ∑ i : Fin 3, ∑ j : Fin 3, tap xp k (y 0) (y 1) (y 2) (y 3) i j

theorem conv_apply {B : ℕ} (xp : (⟨4, ![B, 34, 34, 64]⟩ : Shape).Idx → EReal) (k : (⟨4, ![3, 3, 64, 64]⟩ : Shape).Idx → EReal)
    (b : Fin B) (h w : Fin 32) (o : Fin 64) :
    conv xp k (ix4 b h w o) = ∑ i : Fin 3, ∑ j : Fin 3, tap xp k b h w o i j := rfl

section Laws
variable {M : Type*} [AddCommMonoid M]

/-- Nine terms accumulated one after the other from zero, in row-major order of the taps, are the double sum. -/
theorem nine_from_zero (T : Fin 3 → Fin 3 → M) :
    ((((((((0 + T 0 0) + T 0 1) + T 0 2) + T 1 0) + T 1 1) + T 1 2) + T 2 0) + T 2 1) + T 2 2 = ∑ i, ∑ j, T i j := by
  simp only [Fin.sum_univ_three, zero_add, add_assoc]

/-- Place `c` of tap `(i, j)` among the 576 flattened terms. -/
def flat (i j : Fin 3) (c : Fin 64) : Fin 576 := ⟨64 * (3 * i.val + j.val) + c.val, by omega⟩

@[simp] theorem flat_val (i j : Fin 3) (c : Fin 64) : (flat i j c).val = 64 * (3 * i.val + j.val) + c.val := rfl

/-- A sum over the 576 flattened terms is the sum over the taps of each tap's 64 terms. -/
theorem sum_flat (f : Fin 576 → M) : ∑ q, f q = ∑ i : Fin 3, ∑ j : Fin 3, ∑ c : Fin 64, f (flat i j c) := by
  rw [Cert.LibSumBlocks.sum_blocks (a := 9) (b := 64) rfl f (fun t c => ⟨64 * t.val + c.val, by omega⟩) (fun _ _ => rfl)]
  rw [Cert.LibSumBlocks.sum_blocks (a := 3) (b := 3) (n := 9) rfl
    (fun t : Fin 9 => ∑ c : Fin 64, f ⟨64 * t.val + c.val, by omega⟩) (fun i j => ⟨3 * i.val + j.val, by omega⟩) (fun _ _ => rfl)]
  rfl

end Laws

end Cert.AdderConv

end
-- ==== Proof.KernelTile.lean ====
/-
  One 8-row tile of the kernel's output block, as a function of the padded input block and of the 3 x 3 x 64 x 64 array.

  A tile starting at output row `H0` is built tap by tap: for tap `(i, j)` the body reads the 8 x 32 x 64 patch of the
  padded block at rows `H0 + i ..` and columns `j ..`, and the 64 x 64 slice `(i, j)` of the array, lays each along
  the other's missing axes, subtracts, takes absolute values and sums over the input channels; the nine results are
  added one after the other onto a zero tile. Read at `(r, w, o)` that is the convolution's value at output position
  `(H0 + r, w, o)`: the nine taps accumulated from zero are their double sum.
-/
import proofs.«125155_j19009525252352_1_alg».proof.Proof.Gen.KernelIdeal.Frame
import proofs.«125155_j19009525252352_1_alg».proof.Proof.LibAbsDiffSum
import proofs.«125155_j19009525252352_1_alg».proof.Proof.Spec
import Idealize.ShloMosaic.Lib.Pipeline.Value
import Idealize.ShloMosaic.Lib.ValueIdx
import Idealize.ShloMosaic.PureOps.Ideal.Laws

noncomputable section

namespace Cert.AdderConv.Kernel

open Cert.KernelIdeal Cert.KernelIdeal.Gen Idealize.ShloMosaic Idealize.ShloMosaic.ValueIdx Cert.AdderConv

/-! ## One tap -/

/-- One tap on a loaded patch and a loaded slice: the lane sum of the absolute differences. -/
def tapBlock (xv : Vec Ideal S1x8x32x64 .f32) (kv : Vec Ideal S1x1x64x64 .f32) : FVec Ideal S8x32x64 .f32 :=
  multiReduction .add [2] S8x32x64
    (absf (subf
      (broadcastTo S8x32x64x64 (shapeCast S8x32x64x1 (shapeCast S8x32x64 xv shapeCasts_S1x8x32x64_S8x32x64) shapeCasts_S8x32x64_S8x32x64x1) broadcasts_S8x32x64x1_S8x32x64x64)
      (broadcastTo S8x32x64x64 (shapeCast S1x1x64x64 (shapeCast S64x64 kv shapeCasts_S1x1x64x64_S64x64) shapeCasts_S64x64_S1x1x64x64) broadcasts_S1x1x64x64_S8x32x64x64)))
    0x00000000#32 reduces_S8x32x64x64_S8x32x64 (.inl rfl) rfl

/-- At `(r, w, o)`: the sum over the input channels of `|patch (r, w, c) - slice (c, o)|`. -/
theorem tapBlock_apply (xv : Vec Ideal S1x8x32x64 .f32) (kv : Vec Ideal S1x1x64x64 .f32) (r : Fin 8) (w : Fin 32) (o : Fin 64) :
    tapBlock xv kv (ix3 r w o)
      = ∑ c : Fin 64, absE ((xv (ix4 (0 : Fin 1) r w c) : EReal) - kv (ix4 (0 : Fin 1) (0 : Fin 1) c o)) := by
  unfold tapBlock
  refine (Cert.LibAbsDiffSum.absdiff_sum_apply (a := 8) (b := 32) (c := 64) (d := 64)
    (shapeCast S8x32x64 xv shapeCasts_S1x8x32x64_S8x32x64) (shapeCast S64x64 kv shapeCasts_S1x1x64x64_S64x64)
    _ _ _ _ _ _ _ _ r w o).trans ?_
  refine Finset.sum_congr rfl fun c _ => ?_
  have e1 := Cert.LibAbsDiffSum.shapeCast_1abc_abc_apply (a := 8) (b := 32) (c := 64) xv shapeCasts_S1x8x32x64_S8x32x64 r w c
  have e2 := Cert.LibAbsDiffSum.shapeCast_11cd_cd_apply (c := 64) (d := 64) kv shapeCasts_S1x1x64x64_S64x64 c o
  exact congrArg₂ (fun (p q : EReal) => max (p - q) (-(p - q))) e1 e2

/-! ## A tile: nine taps added onto zero -/

/-- The nine taps' results added one after the other onto a zero tile, viewed with a leading unit axis. -/
def tileChain (a0 a1 a2 a3 a4 a5 a6 a7 a8 : Vec Ideal S1x8x32x64 .f32) (b0 b1 b2 b3 b4 b5 b6 b7 b8 : Vec Ideal S1x1x64x64 .f32) :
    FVec Ideal S1x8x32x64 .f32 :=
  shapeCast S1x8x32x64
    (addf (addf (addf (addf (addf (addf (addf (addf (addf
      (broadcast S8x32x64 (Scalar.ofBits (F := Ideal) .f32 0x00000000#32))
      (tapBlock a0 b0)) (tapBlock a1 b1)) (tapBlock a2 b2)) (tapBlock a3 b3)) (tapBlock a4 b4))
      (tapBlock a5 b5)) (tapBlock a6 b6)) (tapBlock a7 b7)) (tapBlock a8 b8))
    shapeCasts_S8x32x64_S1x8x32x64

/-- The patch of the padded block that a tile reads for one tap: 8 rows from row `R`, 32 columns from column `C`. -/
abbrev patchRect (R C : ℕ) (inb : ∀ a, (![0, R, C, 0] : Fin 4 → ℕ) a + S1x8x32x64.size a ≤ S1x34x34x64.size a) : Rect S1x34x34x64 :=
  Rect.unit (s := S1x34x34x64) ![0, R, C, 0] S1x8x32x64.size inb

/-- The slice `(i, j)` of the 3 x 3 x 64 x 64 array. -/
abbrev sliceRect (i j : ℕ) (inb : ∀ a, (![i, j, 0, 0] : Fin 4 → ℕ) a + S1x1x64x64.size a ≤ S3x3x64x64.size a) : Rect S3x3x64x64 :=
  Rect.unit (s := S3x3x64x64) ![i, j, 0, 0] S1x1x64x64.size inb

theorem patch_inb (R C : ℕ) (hR : R + 8 ≤ 34) (hC : C + 32 ≤ 34) :
    ∀ a, (![0, R, C, 0] : Fin 4 → ℕ) a + S1x8x32x64.size a ≤ S1x34x34x64.size a := fun a => by
  match a with
  | ⟨0, _⟩ => show 0 + 1 ≤ 1; omega
  | ⟨1, _⟩ => show R + 8 ≤ 34; omega
  | ⟨2, _⟩ => show C + 32 ≤ 34; omega
  | ⟨3, _⟩ => show 0 + 64 ≤ 64; omega

theorem slice_inb (i j : ℕ) (hi : i + 1 ≤ 3) (hj : j + 1 ≤ 3) :
    ∀ a, (![i, j, 0, 0] : Fin 4 → ℕ) a + S1x1x64x64.size a ≤ S3x3x64x64.size a := fun a => by
  match a with
  | ⟨0, _⟩ => show i + 1 ≤ 3; omega
  | ⟨1, _⟩ => show j + 1 ≤ 3; omega
  | ⟨2, _⟩ => show 0 + 64 ≤ 64; omega
  | ⟨3, _⟩ => show 0 + 64 ≤ 64; omega

/-- One tap of the tile at row offset `H0`, on the patch and the slice it loads. -/
def tapAt (x0 : Vec Ideal S1x34x34x64 .f32) (x1 : Vec Ideal S3x3x64x64 .f32) (H0 : ℕ) (hH : H0 + 8 ≤ 32) (i j : Fin 3) :
    FVec Ideal S8x32x64 .f32 :=
  tapBlock (View.ld x0 (patchRect (H0 + i.val) j.val (patch_inb _ _ (by omega) (by omega))))
    (View.ld x1 (sliceRect i.val j.val (slice_inb _ _ (by omega) (by omega))))

/-- That tap at `(r, w, o)` is the convolution's tap `(i, j)` at output position `(H0 + r, w, o)`. -/
theorem tapAt_apply (x0 : Vec Ideal S1x34x34x64 .f32) (x1 : Vec Ideal S3x3x64x64 .f32) (H0 : ℕ) (hH : H0 + 8 ≤ 32) (i j : Fin 3)
    (r : Fin 8) (w : Fin 32) (o : Fin 64) :
    tapAt x0 x1 H0 hH i j (ix3 r w o)
      = tap (B := 1) x0 x1 0 ⟨H0 + r.val, by omega⟩ w o i j := by
  unfold tapAt tap
  rw [tapBlock_apply]
  refine Finset.sum_congr rfl fun c _ => ?_
  have ex : (patchRect (H0 + i.val) j.val (patch_inb _ _ (by omega) (by omega))).idx (ix4 (0 : Fin 1) r w c)
      = ix4 (0 : Fin 1) (shift ⟨H0 + r.val, by omega⟩ i) (shift w j) c := by
    funext a; apply Fin.ext
    match a with
    | ⟨0, _⟩ => rfl
    | ⟨1, _⟩ => show H0 + i.val + 1 * r.val = H0 + r.val + i.val; omega
    | ⟨2, _⟩ => show j.val + 1 * w.val = w.val + j.val; omega
    | ⟨3, _⟩ => show 0 + 1 * c.val = c.val; omega
  have ek : (sliceRect i.val j.val (slice_inb _ _ (by omega) (by omega))).idx (ix4 (0 : Fin 1) (0 : Fin 1) c o)
      = ix4 i j c o := by
    funext a; apply Fin.ext
    match a with
    | ⟨0, _⟩ => show i.val + 1 * 0 = i.val; omega
    | ⟨1, _⟩ => show j.val + 1 * 0 = j.val; omega
    | ⟨2, _⟩ => show 0 + 1 * c.val = c.val; omega
    | ⟨3, _⟩ => show 0 + 1 * o.val = o.val; omega
  show absE (x0 ((patchRect (H0 + i.val) j.val _).idx (ix4 (0 : Fin 1) r w c)) - x1 ((sliceRect i.val j.val _).idx (ix4 (0 : Fin 1) (0 : Fin 1) c o))) = _
  rw [ex, ek]

/-- The tile at row offset `H0`: its nine taps in row-major order added onto zero. -/
def tileAt (x0 : Vec Ideal S1x34x34x64 .f32) (x1 : Vec Ideal S3x3x64x64 .f32) (H0 : ℕ) (hH : H0 + 8 ≤ 32) : FVec Ideal S1x8x32x64 .f32 :=
  shapeCast S1x8x32x64
    (addf (addf (addf (addf (addf (addf (addf (addf (addf
      (broadcast S8x32x64 (Scalar.ofBits (F := Ideal) .f32 0x00000000#32))
      (tapAt x0 x1 H0 hH 0 0)) (tapAt x0 x1 H0 hH 0 1)) (tapAt x0 x1 H0 hH 0 2)) (tapAt x0 x1 H0 hH 1 0)) (tapAt x0 x1 H0 hH 1 1))
      (tapAt x0 x1 H0 hH 1 2)) (tapAt x0 x1 H0 hH 2 0)) (tapAt x0 x1 H0 hH 2 1)) (tapAt x0 x1 H0 hH 2 2))
    shapeCasts_S8x32x64_S1x8x32x64

/-- THE TILE IS THE CONVOLUTION on its eight rows: at `(0, r, w, o)` the value at output position `(H0 + r, w, o)`. -/
theorem tileAt_apply (x0 : Vec Ideal S1x34x34x64 .f32) (x1 : Vec Ideal S3x3x64x64 .f32) (H0 : ℕ) (hH : H0 + 8 ≤ 32)
    (u : Fin 1) (r : Fin 8) (w : Fin 32) (o : Fin 64) :
    tileAt x0 x1 H0 hH (ix4 u r w o) = conv (B := 1) x0 x1 (ix4 (0 : Fin 1) ⟨H0 + r.val, by omega⟩ w o) := by
  unfold tileAt
  refine (Cert.LibAbsDiffSum.shapeCast_abc_1abc_apply (a := 8) (b := 32) (c := 64) _ shapeCasts_S8x32x64_S1x8x32x64 u r w o).trans ?_
  rw [conv_apply, ← nine_from_zero]
  simp only [addf_apply, broadcast_apply, tapAt_apply]
  rw [show (Scalar.ofBits (F := Ideal) .f32 0x00000000#32 : EReal) = 0 from Ideal.ofBits_zero_f32]

end Cert.AdderConv.Kernel

end
-- ==== Proof.KernelBlock.lean ====
/-
  From the kernel's blocks to its result array.

  The grid has one point per batch image. At point `t` the body's output block is the four 8-row tiles stacked, each tile
  the convolution on its rows, so the block is the convolution of the point's padded image with the array; the point's
  padded image is image `t` of the padded batch and the array is staged whole, so the block is image `t` of the
  convolution of the whole padded batch. The four blocks cover the result array, which therefore ends holding that
  convolution; the padded batch is the argument padded with zeros by the operations that run before the region.
-/
import proofs.«125155_j19009525252352_1_alg».proof.Proof.Gen.KernelIdeal.Value
import proofs.«125155_j19009525252352_1_alg».proof.Proof.KernelTile
import Idealize.ShloMosaic.Lib.Pipeline.Value
import Idealize.ShloMosaic.Lib.StableHlo.Run

set_option maxRecDepth 16384

noncomputable section

namespace Cert.AdderConv.Kernel

open Cert.KernelIdeal Cert.KernelIdeal.Gen Cert.KernelIdeal.Value Idealize.ShloMosaic Idealize.ShloMosaic.TcCoe Idealize.SL.Sem
open Idealize.ShloMosaic.ValueIdx Idealize.ShloMosaic.StableHlo Cert.AdderConv
open Idealize.ShloMosaic.Pipeline (Dat)

/-! ## The body's output block is the convolution of its input blocks -/

/-- The four stored pieces are the four tiles, at row offsets 24, 16, 8 and 0 (last stored first). -/
theorem out_tiles (x0 : Vec Ideal S1x34x34x64 .f32) (x1 : Vec Ideal S3x3x64x64 .f32) :
    out0_2 x0 x1 = View.canon [⟨r0_48, tileAt x0 x1 24 (by omega)⟩, ⟨r0_38, tileAt x0 x1 16 (by omega)⟩,
      ⟨r0_28, tileAt x0 x1 8 (by omega)⟩, ⟨r0_18, tileAt x0 x1 0 (by omega)⟩] := rfl

/-- A tile stored at row offset `H0` agrees with the convolution on its rows. -/
theorem tile_piece (x0 : Vec Ideal S1x34x34x64 .f32) (x1 : Vec Ideal S3x3x64x64 .f32) (H0 : ℕ) (hH : H0 + 8 ≤ 32)
    (inb : ∀ a, (![0, H0, 0, 0] : Fin 4 → ℕ) a + S1x8x32x64.size a ≤ S1x32x32x64.size a)
    (x : (Rect.unit (s := S1x32x32x64) ![0, H0, 0, 0] S1x8x32x64.size inb).shape.Idx) :
    tileAt x0 x1 H0 hH x = conv (B := 1) x0 x1 ((Rect.unit (s := S1x32x32x64) ![0, H0, 0, 0] S1x8x32x64.size inb).emb x) := by
  obtain ⟨u, r, w, o, rfl⟩ : ∃ (u : Fin 1) (r : Fin 8) (w : Fin 32) (o : Fin 64), x = ix4 u r w o :=
    ⟨x 0, x 1, x 2, x 3, eq_ix4 x⟩
  refine (tileAt_apply x0 x1 H0 hH u r w o).trans (congrArg (conv (B := 1) x0 x1) ?_)
  have hu : u.val = 0 := by omega
  exact idx4_ext _ _ (by show 0 = 0 + 1 * u.val; omega) (by show H0 + r.val = H0 + 1 * r.val; omega)
    (by show w.val = 0 + 1 * w.val; omega) (by show o.val = 0 + 1 * o.val; omega)

/-- THE BLOCK: what the body leaves in the output window's buffer is the convolution of its two input blocks. -/
theorem out_eq (x0 : Vec Ideal S1x34x34x64 .f32) (x1 : Vec Ideal S3x3x64x64 .f32) :
    out0_2 x0 x1 = conv (B := 1) x0 x1 := by
  funext y
  rw [out_tiles]
  refine View.canon_apply_of_pieces (Val := Elt Ideal) (S := S1x32x32x64) (e := .f32) (conv (B := 1) x0 x1) _ ?_ y (cover0_2 _ _ _ _ y)
  intro p hp x
  simp only [List.mem_cons, List.not_mem_nil, or_false] at hp
  rcases hp with rfl | rfl | rfl | rfl
  · exact tile_piece x0 x1 24 (by omega) inb_S1x32x32x64_S1x8x32x64_0_24_0_0 x
  · exact tile_piece x0 x1 16 (by omega) inb_S1x32x32x64_S1x8x32x64_0_16_0_0 x
  · exact tile_piece x0 x1 8 (by omega) inb_S1x32x32x64_S1x8x32x64_0_8_0_0 x
  · exact tile_piece x0 x1 0 (by omega) inb_S1x32x32x64_S1x8x32x64_0_0_0_0 x

/-! ## The input blocks at a point -/

variable (m : (ℓ : Loc nD τ sig) → Buf (Elt Ideal) ℓ) (ρ : Dev nD → PrngReg)

/-- The padded batch as the region finds it. -/
abbrev xpad (c : Dev nD) : Vec Ideal S4x34x34x64 .f32 := V m c main_v0
/-- The 3 x 3 x 64 x 64 array as the region finds it. -/
abbrev karr (c : Dev nD) : Vec Ideal S3x3x64x64 .f32 := V m c main_arg1
/-- Point `t`'s padded image. -/
abbrev xblk (c : Dev nD) (t : Fin cfg0.N) : Vec Ideal S1x34x34x64 .f32 := iblk m c 0 t
/-- Point `t`'s staged array. -/
abbrev kblk (c : Dev nD) (t : Fin cfg0.N) : Vec Ideal S3x3x64x64 .f32 := iblk m c 1 t

/-- The printed index maps over the grid: the padded input's and the output's block index is `(t, 0, 0, 0)`, the
    array's `(0, 0, 0, 0)`. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = 0 ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

theorem t_lt (t : Fin cfg0.N) : t.val < 4 := Nat.lt_of_lt_of_eq t.isLt N_0

/-- Point `t`'s padded image is image `t` of the padded batch. -/
theorem xblk_apply (c : Dev nD) (t : Fin cfg0.N) (u : Fin 1) (a b : Fin 34) (d : Fin 64) :
    xblk m c t (ix4 u a b d) = xpad m c (ix4 ⟨t.val, t_lt t⟩ a b d) := by
  obtain ⟨e0, e1, e2, e3, -⟩ := idx_facts t
  have hu : u.val = 0 := by omega
  show V m c main_v0 (((cfg0.win 0).blk t).view.emb (ix4 u a b d)) = V m c main_v0 (ix4 ⟨t.val, t_lt t⟩ a b d)
  refine congrArg (V m c main_v0) (idx4_ext _ _ ?_ ?_ ?_ ?_)
  · show win0_0.index t (0 : Fin 4) * 1 + 1 * u.val = t.val; omega
  · show win0_0.index t (1 : Fin 4) * 34 + 1 * a.val = a.val; omega
  · show win0_0.index t (2 : Fin 4) * 34 + 1 * b.val = b.val; omega
  · show win0_0.index t (3 : Fin 4) * 64 + 1 * d.val = d.val; omega

/-- The array is staged whole at every point. -/
theorem kblk_apply (c : Dev nD) (t : Fin cfg0.N) (i j : Fin 3) (d o : Fin 64) :
    kblk m c t (ix4 i j d o) = karr m c (ix4 i j d o) := by
  obtain ⟨-, -, -, -, e0, e1, e2, e3, -⟩ := idx_facts t
  show V m c main_arg1 (((cfg0.win 1).blk t).view.emb (ix4 i j d o)) = V m c main_arg1 (ix4 i j d o)
  refine congrArg (V m c main_arg1) (idx4_ext _ _ ?_ ?_ ?_ ?_)
  · show win0_1.index t (0 : Fin 4) * 3 + 1 * i.val = i.val; omega
  · show win0_1.index t (1 : Fin 4) * 3 + 1 * j.val = j.val; omega
  · show win0_1.index t (2 : Fin 4) * 64 + 1 * d.val = d.val; omega
  · show win0_1.index t (3 : Fin 4) * 64 + 1 * o.val = o.val; omega

/-! ## What each point writes back, the cover, the array -/

/-- WHAT POINT `t` WRITES BACK is image `t` of the convolution of the padded batch with the array. -/
theorem flushed_eq (c : Dev nD) (t : Fin cfg0.N) :
    (dats m 0 c).flushed 2 t = ((cfg0.win 2).blk t).view.read (Elt Ideal) (conv (B := 4) (xpad m c) (karr m c)) := by
  rw [flushed2]
  show out0_2 (xblk m c t) (kblk m c t) = _
  rw [out_eq]
  obtain ⟨-, -, -, -, -, -, -, -, e0, e1, e2, e3⟩ := idx_facts t
  funext y
  obtain ⟨u, h, w, o, rfl⟩ : ∃ (u : Fin 1) (h w : Fin 32) (o : Fin 64), y = ix4 u h w o := ⟨y 0, y 1, y 2, y 3, eq_ix4 y⟩
  have hu : u.val = 0 := by omega
  have ey : ((cfg0.win 2).blk t).view.emb (ix4 u h w o) = ix4 (⟨t.val, t_lt t⟩ : Fin 4) h w o :=
    idx4_ext _ _ (by show win0_2.index t (0 : Fin 4) * 1 + 1 * u.val = t.val; omega)
      (by show win0_2.index t (1 : Fin 4) * 32 + 1 * h.val = h.val; omega)
      (by show win0_2.index t (2 : Fin 4) * 32 + 1 * w.val = w.val; omega)
      (by show win0_2.index t (3 : Fin 4) * 64 + 1 * o.val = o.val; omega)
  show conv (B := 1) (xblk m c t) (kblk m c t) (ix4 u h w o) = conv (B := 4) (xpad m c) (karr m c) (((cfg0.win 2).blk t).view.emb (ix4 u h w o))
  rw [ey, conv_apply, conv_apply]
  refine Finset.sum_congr rfl fun i _ => Finset.sum_congr rfl fun j _ => ?_
  unfold tap
  refine Finset.sum_congr rfl fun d _ => ?_
  rw [xblk_apply, kblk_apply]

/-- An index of the result array is in point `t`'s block iff each coordinate is in the block's range on its axis. -/
theorem mem_blk (t : Fin cfg0.N) (i : S4x32x32x64.Idx) :
    i ∈ ((cfg0.win 2).blk t).view.set ↔ ∀ a : Fin 4, win0_2.index t a * S1x32x32x64.size a ≤ (i a).val ∧ (i a).val < win0_2.index t a * S1x32x32x64.size a + S1x32x32x64.size a := by
  show i ∈ ((View.whole main_v1).slice (win0_2.rect t)).set ↔ _
  rw [View.set_slice_whole, Rect.mem_set_unit]
  exact Iff.rfl

/-- Every index of the result array is in the block of the point its batch coordinate names. -/
theorem cover (i : S4x32x32x64.Idx) : ∃ t : Fin cfg0.N, (cfg0.win 2).flush t = true ∧ i ∈ ((cfg0.win 2).blk t).view.set := by
  have h0 : (i 0).val < 4 := (i 0).isLt
  have h1 : (i 1).val < 32 := (i 1).isLt
  have h2 : (i 2).val < 32 := (i 2).isLt
  have h3 : (i 3).val < 64 := (i 3).isLt
  let t : Fin cfg0.N := ⟨(i 0).val, by rw [show cfg0.N = 4 from N_0]; exact h0⟩
  obtain ⟨-, -, -, -, -, -, -, -, e0, e1, e2, e3⟩ := idx_facts t
  have e0' : win0_2.index t (0 : Fin 4) = (i 0).val := e0
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 32 ≤ (i 1).val ∧ (i 1).val < win0_2.index t (1 : Fin 4) * 32 + 32; omega
  | ⟨2, _⟩ => show win0_2.index t (2 : Fin 4) * 32 ≤ (i 2).val ∧ (i 2).val < win0_2.index t (2 : Fin 4) * 32 + 32; omega
  | ⟨3, _⟩ => show win0_2.index t (3 : Fin 4) * 64 ≤ (i 3).val ∧ (i 3).val < win0_2.index t (3 : Fin 4) * 64 + 64; omega

/-- THE RESULT ARRAY after the run is the convolution of the padded batch with the array. -/
theorem final (c : Dev nD) : (dats m 0 c).arrAt 2 cfg0.N = conv (B := 4) (xpad m c) (karr m c) :=
  (dats m 0 c).arrAt_eq_of_cover 2 (conv (B := 4) (xpad m c) (karr m c)) (fun t _ => flushed_eq m c t) cover

/-! ## The padded batch and the array, from the arguments -/

/-- The argument padded by one zero row and column on each side of the two spatial axes. -/
def padded (x : Vec Ideal S4x32x32x64 .f32) : Vec Ideal S4x34x34x64 .f32 :=
  pad S4x34x34x64 ![0, 1, 1, 0] ![0, 1, 1, 0] ![0, 0, 0, 0] x (sitofp (F := Ideal) .f32 (constantI S_ 32 0#32))
    pads_S4x32x32x64_S4x34x34x64_000_110_110_000 h_S_

/-- The operations before the region leave the padded argument in the region's first operand. -/
theorem xpad_eq (c : Dev nD) : xpad m c = padded (m ((c : Thread nD τ).loc main_arg0)) := by
  show (V m c main_v0 : S4x34x34x64.Idx → EReal) = _
  dsimp only [V]
  simp only [hostOps0, hostOps0_1, List.flatten_cons, List.flatten_nil, List.append_nil, List.cons_append, List.nil_append]
  after_results
  rfl

theorem karr_eq (c : Dev nD) : karr m c = m ((c : Thread nD τ).loc main_arg1) := V_main_arg1 m c

/-- THE KERNEL'S RUN: every weakly fair execution terminates with the result array at the convolution of the zero-padded
    first argument with the second, the arguments unchanged. -/
theorem run : θ_run defs (onTc (τ := τ) (main (F := Ideal))) ⟨m, fun _ => 0, ρ⟩ fun r => ∀ c : Dev nD,
      r.2.mem ((c : Thread nD τ).loc main_v1)
        = conv (B := 4) (padded (m ((c : Thread nD τ).loc main_arg0))) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨by rw [(h c).1, final m c, xpad_eq, karr_eq], (h c).2⟩) (run_blocks m ρ)

end Cert.AdderConv.Kernel

end
-- ==== Proof.LibConcatNine.lean ====
/-
  Nine slabs stacked along a unit axis, read at an index given by coordinates.

  A concatenation along an axis reads, at an index, the piece whose span along that axis holds the index's coordinate
  there. For nine `[a, b, c, 1, d]` slabs joined along axis 3 into an `[a, b, c, 9, d]` array every span has length
  one: entry `(x, y, z, t, e)` is slab `t`'s entry `(x, y, z, 0, e)`.
-/
import Idealize.ShloMosaic.Lib.Pipeline.Value
import Idealize.ShloMosaic.Lib.ValueIdx

namespace Cert.LibConcatNine

open Idealize.ShloMosaic Idealize.ShloMosaic.ValueIdx

variable {α : Type}

/-- Nine `[a, b, c, 1, d]` slabs stacked along axis 3: entry `(x, y, z, t, e)` of the result is slab `t` at `(x, y, z, 0, e)`.
    The nine slabs are one family indexed by `t`, each of extent one along the joined axis. -/
theorem concat9_slabs_apply {a b c d : ℕ} (p0 p1 p2 p3 p4 p5 p6 p7 p8 : (⟨5, ![a, b, c, 1, d]⟩ : Shape).Idx → α)
    (h : Shape.Concatenates [(⟨5, ![a, b, c, 1, d]⟩ : Shape), ⟨5, ![a, b, c, 1, d]⟩, ⟨5, ![a, b, c, 1, d]⟩,
      ⟨5, ![a, b, c, 1, d]⟩, ⟨5, ![a, b, c, 1, d]⟩, ⟨5, ![a, b, c, 1, d]⟩, ⟨5, ![a, b, c, 1, d]⟩, ⟨5, ![a, b, c, 1, d]⟩,
      ⟨5, ![a, b, c, 1, d]⟩] ⟨5, ![a, b, c, 9, d]⟩ 3)
    (x : Fin a) (y : Fin b) (z : Fin c) (t : Fin 9) (e : Fin d) :
    concatenate ⟨5, ![a, b, c, 9, d]⟩ 3 [⟨⟨5, ![a, b, c, 1, d]⟩, p0⟩, ⟨⟨5, ![a, b, c, 1, d]⟩, p1⟩, ⟨⟨5, ![a, b, c, 1, d]⟩, p2⟩,
        ⟨⟨5, ![a, b, c, 1, d]⟩, p3⟩, ⟨⟨5, ![a, b, c, 1, d]⟩, p4⟩, ⟨⟨5, ![a, b, c, 1, d]⟩, p5⟩, ⟨⟨5, ![a, b, c, 1, d]⟩, p6⟩,
        ⟨⟨5, ![a, b, c, 1, d]⟩, p7⟩, ⟨⟨5, ![a, b, c, 1, d]⟩, p8⟩] h (ix5 x y z t e)
      = (![p0, p1, p2, p3, p4, p5, p6, p7, p8] t) (ix5 x y z 0 e) :=
  concatenate_ofFn_unit_apply (t := ⟨5, ![a, b, c, 9, d]⟩) (s₁ := ⟨5, ![a, b, c, 1, d]⟩) 3
    (fun n : Fin 9 => ![p0, p1, p2, p3, p4, p5, p6, p7, p8] n) h rfl rfl (ix5 x y z t e) t rfl (ix5 x y z 0 e)
    (fun ax hne => match ax with
      | ⟨0, _⟩ => rfl | ⟨1, _⟩ => rfl | ⟨2, _⟩ => rfl | ⟨3, _⟩ => absurd rfl hne | ⟨4, _⟩ => rfl)

end Cert.LibConcatNine
-- ==== Proof.RefValue.lean ====
/-
  The reference's result is the convolution of the padded input.

  The reference cuts nine shifted 32 x 32 windows out of the zero-padded input, stacks them along a new axis of extent 9,
  flattens that axis with the 64 channels into one axis of 576, does the same to the 3 x 3 x 64 x 64 array, and sums the
  absolute differences over the 576 flattened terms from zero. Flattened place `64 * (3 i + j) + c` holds window
  `(i, j)` at channel `c` against the array's entry `(i, j, c, o)`, so the sum over the 576 places is the sum over the
  taps of each tap's 64 terms.
-/
import proofs.«125155_j19009525252352_1_alg».proof.Proof.Gen.ReferenceIdeal.Read
import proofs.«125155_j19009525252352_1_alg».proof.Proof.LibConcatNine
import proofs.«125155_j19009525252352_1_alg».proof.Proof.Spec
import Idealize.ShloMosaic.Lib.ValueIdx
import Idealize.ShloMosaic.PureOps.Ideal.Laws

noncomputable section

namespace Cert.AdderConv.Reference

open Cert.ReferenceIdeal Cert.ReferenceIdeal.Gen Cert.ReferenceIdeal.Read Idealize.ShloMosaic Idealize.ShloMosaic.ValueIdx
open Cert.AdderConv

variable (x0 : (⟨S4x32x32x64, .f32⟩ : BufTy).Contents (Elt Ideal)) (x1 : (⟨S3x3x64x64, .f32⟩ : BufTy).Contents (Elt Ideal))

/-- Slab `3 i + j` of the stack, at `(b, h, w, 0, c)`, is the padded input at `(b, h + i, w + j, c)`: the window cut at
    offset `(i, j)`. -/
theorem slab_apply (i j : Fin 3) (b : Fin 4) (h w : Fin 32) (c : Fin 64) :
    (![val_main_v10 (F := Ideal) x0, val_main_v11 (F := Ideal) x0, val_main_v12 (F := Ideal) x0, val_main_v13 (F := Ideal) x0,
        val_main_v14 (F := Ideal) x0, val_main_v15 (F := Ideal) x0, val_main_v16 (F := Ideal) x0, val_main_v17 (F := Ideal) x0,
        val_main_v18 (F := Ideal) x0] (⟨3 * i.val + j.val, by omega⟩ : Fin 9)) (ix5 b h w (0 : Fin 1) c)
      = val_main_v0 (F := Ideal) x0 (ix4 b (shift h i) (shift w j) c) := by
  match i, j with
  | ⟨0, _⟩, ⟨0, _⟩ =>
    show val_main_v10 (F := Ideal) x0 (ix5 b h w (0 : Fin 1) c) = _
    rw [val_main_v10_apply, val_main_v1_apply]
    exact congrArg (val_main_v0 (F := Ideal) x0) (idx4_ext _ _ rfl rfl rfl rfl)
  | ⟨0, _⟩, ⟨1, _⟩ =>
    show val_main_v11 (F := Ideal) x0 (ix5 b h w (0 : Fin 1) c) = _
    rw [val_main_v11_apply, val_main_v2_apply]
    exact congrArg (val_main_v0 (F := Ideal) x0) (idx4_ext _ _ rfl rfl (Nat.add_comm 1 w.val) rfl)
  | ⟨0, _⟩, ⟨2, _⟩ =>
    show val_main_v12 (F := Ideal) x0 (ix5 b h w (0 : Fin 1) c) = _
    rw [val_main_v12_apply, val_main_v3_apply]
    exact congrArg (val_main_v0 (F := Ideal) x0) (idx4_ext _ _ rfl rfl (Nat.add_comm 2 w.val) rfl)
  | ⟨1, _⟩, ⟨0, _⟩ =>
    show val_main_v13 (F := Ideal) x0 (ix5 b h w (0 : Fin 1) c) = _
    rw [val_main_v13_apply, val_main_v4_apply]
    exact congrArg (val_main_v0 (F := Ideal) x0) (idx4_ext _ _ rfl (Nat.add_comm 1 h.val) rfl rfl)
  | ⟨1, _⟩, ⟨1, _⟩ =>
    show val_main_v14 (F := Ideal) x0 (ix5 b h w (0 : Fin 1) c) = _
    rw [val_main_v14_apply, val_main_v5_apply]
    exact congrArg (val_main_v0 (F := Ideal) x0) (idx4_ext _ _ rfl (Nat.add_comm 1 h.val) (Nat.add_comm 1 w.val) rfl)
  | ⟨1, _⟩, ⟨2, _⟩ =>
    show val_main_v15 (F := Ideal) x0 (ix5 b h w (0 : Fin 1) c) = _
    rw [val_main_v15_apply, val_main_v6_apply]
    exact congrArg (val_main_v0 (F := Ideal) x0) (idx4_ext _ _ rfl (Nat.add_comm 1 h.val) (Nat.add_comm 2 w.val) rfl)
  | ⟨2, _⟩, ⟨0, _⟩ =>
    show val_main_v16 (F := Ideal) x0 (ix5 b h w (0 : Fin 1) c) = _
    rw [val_main_v16_apply, val_main_v7_apply]
    exact congrArg (val_main_v0 (F := Ideal) x0) (idx4_ext _ _ rfl (Nat.add_comm 2 h.val) rfl rfl)
  | ⟨2, _⟩, ⟨1, _⟩ =>
    show val_main_v17 (F := Ideal) x0 (ix5 b h w (0 : Fin 1) c) = _
    rw [val_main_v17_apply, val_main_v8_apply]
    exact congrArg (val_main_v0 (F := Ideal) x0) (idx4_ext _ _ rfl (Nat.add_comm 2 h.val) (Nat.add_comm 1 w.val) rfl)
  | ⟨2, _⟩, ⟨2, _⟩ =>
    show val_main_v18 (F := Ideal) x0 (ix5 b h w (0 : Fin 1) c) = _
    rw [val_main_v18_apply, val_main_v9_apply]
    exact congrArg (val_main_v0 (F := Ideal) x0) (idx4_ext _ _ rfl (Nat.add_comm 2 h.val) (Nat.add_comm 2 w.val) rfl)

/-- The flattened operand at place `64 * (3 i + j) + c` is the padded input at `(b, h + i, w + j, c)`. -/
theorem patches_apply (i j : Fin 3) (b : Fin 4) (h w : Fin 32) (c : Fin 64) :
    val_main_v20 (F := Ideal) x0 (ix4 b h w (flat i j c)) = val_main_v0 (F := Ideal) x0 (ix4 b (shift h i) (shift w j) c) := by
  have hb := b.isLt; have hh := h.isLt; have hw := w.isLt; have hc := c.isLt; have hi := i.isLt; have hj := j.isLt
  have e : idx_main_v20 (ix4 b h w (flat i j c)) = ix5 b h w (⟨3 * i.val + j.val, by omega⟩ : Fin 9) c :=
    idx5_ext _ _
      (by show (((b.val * 32 + h.val) * 32 + w.val) * 576 + (64 * (3 * i.val + j.val) + c.val)) / 589824 = b.val; omega)
      (by show (((b.val * 32 + h.val) * 32 + w.val) * 576 + (64 * (3 * i.val + j.val) + c.val)) / 18432 % 32 = h.val; omega)
      (by show (((b.val * 32 + h.val) * 32 + w.val) * 576 + (64 * (3 * i.val + j.val) + c.val)) / 576 % 32 = w.val; omega)
      (by show (((b.val * 32 + h.val) * 32 + w.val) * 576 + (64 * (3 * i.val + j.val) + c.val)) / 64 % 9 = 3 * i.val + j.val; omega)
      (by show (((b.val * 32 + h.val) * 32 + w.val) * 576 + (64 * (3 * i.val + j.val) + c.val)) % 64 = c.val; omega)
  rw [val_main_v20_apply, e]
  unfold val_main_v19
  rw [Cert.LibConcatNine.concat9_slabs_apply, slab_apply]

/-- The flattened array at `(64 * (3 i + j) + c, o)` is the array's entry `(i, j, c, o)`. -/
theorem kflat_apply (i j : Fin 3) (c o : Fin 64) :
    val_main_v21 (F := Ideal) x1 (ix2 (flat i j c) o) = x1 (ix4 i j c o) := by
  have hc := c.isLt; have ho := o.isLt; have hi := i.isLt; have hj := j.isLt
  rw [val_main_v21_apply]
  exact congrArg x1 (idx4_ext _ _
    (by show ((64 * (3 * i.val + j.val) + c.val) * 64 + o.val) / 12288 = i.val; omega)
    (by show ((64 * (3 * i.val + j.val) + c.val) * 64 + o.val) / 4096 % 3 = j.val; omega)
    (by show ((64 * (3 * i.val + j.val) + c.val) * 64 + o.val) / 64 % 64 = c.val; omega)
    (by show ((64 * (3 * i.val + j.val) + c.val) * 64 + o.val) % 64 = o.val; omega))

/-- One of the 576 summed terms, at its place: the absolute difference the convolution's tap `(i, j)` has at channel `c`. -/
theorem term_apply (i j : Fin 3) (b : Fin 4) (h w : Fin 32) (c o : Fin 64) :
    val_main_v27 (F := Ideal) x0 x1 (idx_main_v28 (ix4 b h w o) (flat i j c))
      = absE ((val_main_v0 (F := Ideal) x0 (ix4 b (shift h i) (shift w j) c) : EReal) - x1 (ix4 i j c o)) := by
  rw [val_main_v27_apply, val_main_v26_apply, val_main_v24_apply, val_main_v22_apply, val_main_v25_apply, val_main_v23_apply]
  have e1 : idx_main_v22 (idx_main_v24 (idx_main_v28 (ix4 b h w o) (flat i j c))) = ix4 b h w (flat i j c) :=
    idx4_ext _ _ rfl rfl rfl rfl
  have e2 : idx_main_v23 (idx_main_v25 (idx_main_v28 (ix4 b h w o) (flat i j c))) = ix2 (flat i j c) o :=
    funext fun a => Fin.ext (match a with | ⟨0, _⟩ => rfl | ⟨1, _⟩ => rfl)
  rw [e1, e2, patches_apply, kflat_apply]
  rfl

/-- THE REFERENCE IS THE CONVOLUTION of its padded input with the array. -/
theorem ref_eq : val_main_v28 (F := Ideal) x0 x1 = conv (B := 4) (val_main_v0 (F := Ideal) x0) x1 := by
  funext y
  obtain ⟨b, h, w, o, rfl⟩ : ∃ (b : Fin 4) (h w : Fin 32) (o : Fin 64), y = ix4 b h w o := ⟨y 0, y 1, y 2, y 3, eq_ix4 y⟩
  rw [val_main_v28_apply, conv_apply, sum_flat]
  rw [show val_main_cst (F := Ideal) (Shape.Idx.first h_S_) = (0 : EReal) from Ideal.ofBits_zero_f32, zero_add]
  refine Finset.sum_congr rfl fun i _ => Finset.sum_congr rfl fun j _ => ?_
  unfold tap
  exact Finset.sum_congr rfl fun c _ => term_apply x0 x1 i j b h w c o

end Cert.AdderConv.Reference

end
-- ==== Proof.lean ====
/-
  An L1 ("adder") convolution: a 3 x 3 window slid over a zero-padded 32 x 32 x 64 image, each output channel the sum over
  the window and the 64 input channels of `|input - weight|`. The kernel walks the batch one image per grid point, builds
  each image's output in four tiles of eight rows, and within a tile adds the nine taps one after the other onto zero,
  each tap a sum over the input channels. The reference stacks the nine shifted windows, flattens window and channel
  into one axis of 576, and takes one sum over it from zero.

  Over the extended reals both are the same 576 absolute differences added up, grouped differently; addition there is
  commutative and associative with unit zero, which is all the regrouping needs, so the precondition that the inputs are
  finite is never opened. The ideal pass rewrote nothing, so the idealized kernel is the kernel's own text.

  The two kernel frames are the generated ones, and the reference's frame is its generated run with the result dropped.
  Written by hand: the convolution as one function of the padded input and the weights, with the two summation laws
  (Spec); a tile's value at an index (KernelTile); the kernel's blocks assembled into its result array (KernelBlock); the
  reference's flattened sum read back as the same function (RefValue).
-/
import proofs.«125155_j19009525252352_1_alg».proof.Defs
import proofs.«125155_j19009525252352_1_alg».proof.Proof.Gen.Kernel
import proofs.«125155_j19009525252352_1_alg».proof.Proof.Gen.Kernel.Skeleton
import proofs.«125155_j19009525252352_1_alg».proof.Proof.Gen.Kernel.Launch
import proofs.«125155_j19009525252352_1_alg».proof.Proof.Gen.Kernel.Points
import proofs.«125155_j19009525252352_1_alg».proof.Proof.Gen.Kernel.Frame
import proofs.«125155_j19009525252352_1_alg».proof.Proof.Gen.KernelIdeal
import proofs.«125155_j19009525252352_1_alg».proof.Proof.Gen.KernelIdeal.Skeleton
import proofs.«125155_j19009525252352_1_alg».proof.Proof.Gen.KernelIdeal.Launch
import proofs.«125155_j19009525252352_1_alg».proof.Proof.Gen.KernelIdeal.Points
import proofs.«125155_j19009525252352_1_alg».proof.Proof.Gen.KernelIdeal.Frame
import proofs.«125155_j19009525252352_1_alg».proof.Proof.Gen.ReferenceIdeal
import proofs.«125155_j19009525252352_1_alg».proof.Proof.Gen.Pre_finite_inputs
import proofs.«125155_j19009525252352_1_alg».proof.Proof.Gen.KernelIdeal.Value
import proofs.«125155_j19009525252352_1_alg».proof.Proof.Gen.ReferenceIdeal.Run
import proofs.«125155_j19009525252352_1_alg».proof.Proof.Gen.ReferenceIdeal.Read
import proofs.«125155_j19009525252352_1_alg».proof.Proof.KernelBlock
import proofs.«125155_j19009525252352_1_alg».proof.Proof.RefValue
import Idealize.ShloMosaic.Adequacy
import Idealize.ShloMosaic.Init

noncomputable section

namespace Cert.Proof

open Idealize.ShloMosaic Idealize.ShloMosaic.TcCoe Idealize.SL.Sem Cert.AdderConv

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Over the extended reals the kernel's result array ends at the convolution of the zero-padded first argument with the
    second, and so does the reference's, from arguments that agree: one function of the arguments. -/
theorem algebraic : Cert.algebraic_KernelIdeal_ReferenceIdeal := by
  intro m ρ m' ρ' _ hagree
  refine ⟨fun c => conv (B := 4)
      (Kernel.padded (m ((c.tc : Thread Cert.KernelIdeal.nD Cert.KernelIdeal.τ).loc Cert.KernelIdeal.main_arg0)))
      (m ((c.tc : Thread Cert.KernelIdeal.nD Cert.KernelIdeal.τ).loc Cert.KernelIdeal.main_arg1)),
    Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Reference.ref_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
